-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x6x112x16x44x80 : Shape := ⟨6, ![1, 6, 112, 16, 44, 80]⟩
abbrev S1x6x112x16x44x3 : Shape := ⟨6, ![1, 6, 112, 16, 44, 3]⟩
abbrev S_ : Shape := ⟨0, ![]⟩

class Facts : Prop where
  bcast_S_S1x6x112x16x44x80 : S_.BroadcastsInDim S1x6x112x16x44x80 (![] : Fin 0 → Fin S1x6x112x16x44x80.rank)
  reducesTo_S1x6x112x16x44x80_S_d0_1_2_3_4_5 : S1x6x112x16x44x80.ReducesTo [0, 1, 2, 3, 4, 5] S_
  h_S_ : 0 < S_.numel

variable [Facts]

def fn {F : FTy → Type} [FloatOps F] (main_arg0 : FVec F S1x6x112x16x44x80 .f32) (main_arg1 : IVec S1x6x112x16x44x3 32) : IVec S_ 1 :=
  let main_v0 : FVec F S1x6x112x16x44x80 .f32 := Host.absf main_arg0
  let main_cst : FVec F S_ .f32 := constant S_ .f32 0x7F800000#32
  let main_v1 : FVec F S1x6x112x16x44x80 .f32 := broadcastInDim S1x6x112x16x44x80 ![] bcast_S_S1x6x112x16x44x80 main_cst
  let main_v2 : IVec S1x6x112x16x44x80 1 := cmpf .olt main_v0 main_v1
  let main_c : IVec S_ 1 := constantI S_ 1 1#1
  let main_v3 : IVec S_ 1 := (fun x v => Host.reduce IntOp.andi x v reducesTo_S1x6x112x16x44x80_S_d0_1_2_3_4_5 h_S_) main_v2 main_c
  main_v3
-- ==== Kernel.lean ====
abbrev S1x6x112x16x44x80 : Shape := ⟨6, ![1, 6, 112, 16, 44, 80]⟩
abbrev S1x6x112x16x44x3 : Shape := ⟨6, ![1, 6, 112, 16, 44, 3]⟩
abbrev S473088x80 : Shape := ⟨2, ![473088, 80]⟩
abbrev S473088x3 : Shape := ⟨2, ![473088, 3]⟩
abbrev S473088x1 : Shape := ⟨2, ![473088, 1]⟩
abbrev S473088 : Shape := ⟨1, ![473088]⟩
abbrev S3696x128 : Shape := ⟨2, ![3696, 128]⟩
abbrev S1232x128 : Shape := ⟨2, ![1232, 128]⟩
abbrev S_ : Shape := ⟨0, ![]⟩
abbrev S262145x80 : Shape := ⟨2, ![262145, 80]⟩
abbrev S262144x80 : Shape := ⟨2, ![262144, 80]⟩
abbrev S1x128x128x16x80 : Shape := ⟨5, ![1, 128, 128, 16, 80]⟩
abbrev S1x80x16x128x128 : Shape := ⟨5, ![1, 80, 16, 128, 128]⟩

abbrev nBuf : Space → Nat
  | .hbm => 22
  | .vmem => 8
  | .smem => 0
  | _ => 0

abbrev bufTy : (tb : Table) → Fin (tcTables nBuf tb) → BufTy
  | .hbm, ⟨0, _⟩ => ⟨S1x6x112x16x44x80, .f32⟩
  | .hbm, ⟨1, _⟩ => ⟨S1x6x112x16x44x3, .i32⟩
  | .hbm, ⟨2, _⟩ => ⟨S473088x80, .f32⟩
  | .hbm, ⟨3, _⟩ => ⟨S473088x3, .i32⟩
  | .hbm, ⟨4, _⟩ => ⟨S473088x1, .i32⟩
  | .hbm, ⟨5, _⟩ => ⟨S473088, .i32⟩
  | .hbm, ⟨6, _⟩ => ⟨S3696x128, .i32⟩
  | .hbm, ⟨7, _⟩ => ⟨S473088x1, .i32⟩
  | .hbm, ⟨8, _⟩ => ⟨S473088, .i32⟩
  | .hbm, ⟨9, _⟩ => ⟨S3696x128, .i32⟩
  | .hbm, ⟨10, _⟩ => ⟨S473088x1, .i32⟩
  | .hbm, ⟨11, _⟩ => ⟨S473088, .i32⟩
  | .hbm, ⟨12, _⟩ => ⟨S3696x128, .i32⟩
  | .hbm, ⟨13, _⟩ => ⟨S3696x128, .i32⟩
  | .hbm, ⟨14, _⟩ => ⟨S473088, .i32⟩
  | .hbm, ⟨15, _⟩ => ⟨S_, .f32⟩
  | .hbm, ⟨16, _⟩ => ⟨S262145x80, .f32⟩
  | .hbm, ⟨17, _⟩ => ⟨S473088x1, .i32⟩
  | .hbm, ⟨18, _⟩ => ⟨S262145x80, .f32⟩
  | .hbm, ⟨19, _⟩ => ⟨S262144x80, .f32⟩
  | .hbm, ⟨20, _⟩ => ⟨S1x128x128x16x80, .f32⟩
  | .hbm, ⟨21, _⟩ => ⟨S1x80x16x128x128, .f32⟩
  | .local _ .vmem, ⟨0, _⟩ => ⟨S1232x128, .i32⟩
  | .local _ .vmem, ⟨1, _⟩ => ⟨S1232x128, .i32⟩
  | .local _ .vmem, ⟨2, _⟩ => ⟨S1232x128, .i32⟩
  | .local _ .vmem, ⟨3, _⟩ => ⟨S1232x128, .i32⟩
  | .local _ .vmem, ⟨4, _⟩ => ⟨S1232x128, .i32⟩
  | .local _ .vmem, ⟨5, _⟩ => ⟨S1232x128, .i32⟩
  | .local _ .vmem, ⟨6, _⟩ => ⟨S1232x128, .i32⟩
  | .local _ .vmem, ⟨7, _⟩ => ⟨S1232x128, .i32⟩
  | _, _ => ⟨S1x6x112x16x44x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1232x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1232x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1232x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1232x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x6x112x16x44x80_S473088x80 : S1x6x112x16x44x80.ShapeCasts S473088x80
  shapeCasts_S1x6x112x16x44x3_S473088x3 : S1x6x112x16x44x3.ShapeCasts S473088x3
  slices_S473088x3_S473088x1_0_0 : S473088x3.Slices ![0, 0] S473088x1
  shapeCasts_S473088x1_S473088 : S473088x1.ShapeCasts S473088
  shapeCasts_S473088_S3696x128 : S473088.ShapeCasts S3696x128
  slices_S473088x3_S473088x1_0_1 : S473088x3.Slices ![0, 1] S473088x1
  slices_S473088x3_S473088x1_0_2 : S473088x3.Slices ![0, 2] S473088x1
  inb_S1232x128_S1232x128_0_0 : ∀ a, (![0, 0] : Fin 2 → Nat) a + S1232x128.size a ≤ S1232x128.size a
  h_S1232x128 : 0 < S1232x128.numel
  shapeCasts_S1232x128_S1232x128 : S1232x128.ShapeCasts S1232x128
  shapeCasts_S3696x128_S473088 : S3696x128.ShapeCasts S473088
  bcast_S_S262145x80 : S_.BroadcastsInDim S262145x80 (![] : Fin 0 → Fin S262145x80.rank)
  bcast_S473088_S473088x1_0 : S473088.BroadcastsInDim S473088x1 (![0] : Fin 1 → Fin S473088x1.rank)
  slices_S262145x80_S262144x80_0_0 : S262145x80.Slices ![0, 0] S262144x80
  shapeCasts_S262144x80_S1x128x128x16x80 : S262144x80.ShapeCasts S1x128x128x16x80
  transposes_S1x128x128x16x80_S1x80x16x128x128_0_4_3_1_2 : S1x128x128x16x80.Transposes [0, 4, 3, 1, 2] S1x80x16x128x128
  scatter_S262145x80_S473088x1_S473088x80_1_0_0_1_wf : ScatterDims.WF S262145x80 S473088x1 S473088x80 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1232x128.size a ≤ S3696x128.size a
  hwx0_0 : ∀ i : grid0.Coords, EltTy.bits .i32 = 32 ∨ (Rect.block (s := S3696x128) S1232x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1232x128.size a ≤ S3696x128.size a
  hwx0_1 : ∀ i : grid0.Coords, EltTy.bits .i32 = 32 ∨ (Rect.block (s := S3696x128) S1232x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1232x128.size a ≤ S3696x128.size a
  hwx0_2 : ∀ i : grid0.Coords, EltTy.bits .i32 = 32 ∨ (Rect.block (s := S3696x128) S1232x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1232x128.size a ≤ S3696x128.size a
  hwx0_3 : ∀ i : grid0.Coords, EltTy.bits .i32 = 32 ∨ (Rect.block (s := S3696x128) S1232x128.size (cc0_transform_3 i) (hinb0_3 i)).WholeWords (EltTy.packing .i32)

variable [Facts₀]

def scatter_S262145x80_S473088x1_S473088x80_1_0_0_1 : ScatterDims S262145x80 S473088x1 S473088x80 where
  updateWindowDims := [1]
  insertedWindowDims := [0]
  scatterDimsToOperandDims := [0]
  indexVectorDim := 1
  wf := scatter_S262145x80_S473088x1_S473088x80_1_0_0_1_wf

abbrev win0_0 : Pipeline.Window sig grid0 :=
  Pipeline.Window.ofSpec (Memref.whole main_v4) S1232x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1232x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1232x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1232x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x6x112x16x44x80 : Shape := ⟨6, ![1, 6, 112, 16, 44, 80]⟩
abbrev S1x6x112x16x44x3 : Shape := ⟨6, ![1, 6, 112, 16, 44, 3]⟩
abbrev S473088x80 : Shape := ⟨2, ![473088, 80]⟩
abbrev S473088x3 : Shape := ⟨2, ![473088, 3]⟩
abbrev S1 : Shape := ⟨1, ![1]⟩
abbrev S1x473088 : Shape := ⟨2, ![1, 473088]⟩
abbrev S473088 : Shape := ⟨1, ![473088]⟩
abbrev S473088x1 : Shape := ⟨2, ![473088, 1]⟩
abbrev S_ : Shape := ⟨0, ![]⟩
abbrev S262145x80 : Shape := ⟨2, ![262145, 80]⟩
abbrev S262144x80 : Shape := ⟨2, ![262144, 80]⟩
abbrev S1x128x128x16x80 : Shape := ⟨5, ![1, 128, 128, 16, 80]⟩
abbrev S1x80x16x128x128 : Shape := ⟨5, ![1, 80, 16, 128, 128]⟩

abbrev nBuf : Space → Nat
  | .hbm => 59
  | .vmem => 0
  | .smem => 0
  | _ => 0

abbrev bufTy : (tb : Table) → Fin (tcTables nBuf tb) → BufTy
  | .hbm, ⟨0, _⟩ => ⟨S1x6x112x16x44x80, .f32⟩
  | .hbm, ⟨1, _⟩ => ⟨S1x6x112x16x44x3, .i32⟩
  | .hbm, ⟨2, _⟩ => ⟨S473088x80, .f32⟩
  | .hbm, ⟨3, _⟩ => ⟨S473088x3, .i32⟩
  | .hbm, ⟨4, _⟩ => ⟨S1, .i32⟩
  | .hbm, ⟨5, _⟩ => ⟨S1x473088, .i32⟩
  | .hbm, ⟨6, _⟩ => ⟨S473088, .i32⟩
  | .hbm, ⟨7, _⟩ => ⟨S473088x1, .i32⟩
  | .hbm, ⟨8, _⟩ => ⟨S473088, .i32⟩
  | .hbm, ⟨9, _⟩ => ⟨S473088x1, .i32⟩
  | .hbm, ⟨10, _⟩ => ⟨S473088, .i32⟩
  | .hbm, ⟨11, _⟩ => ⟨S473088x1, .i32⟩
  | .hbm, ⟨12, _⟩ => ⟨S473088, .i32⟩
  | .hbm, ⟨13, _⟩ => ⟨S_, .i32⟩
  | .hbm, ⟨14, _⟩ => ⟨S473088, .i32⟩
  | .hbm, ⟨15, _⟩ => ⟨S473088, .i1⟩
  | .hbm, ⟨16, _⟩ => ⟨S_, .i32⟩
  | .hbm, ⟨17, _⟩ => ⟨S473088, .i32⟩
  | .hbm, ⟨18, _⟩ => ⟨S473088, .i1⟩
  | .hbm, ⟨19, _⟩ => ⟨S473088, .i1⟩
  | .hbm, ⟨20, _⟩ => ⟨S_, .i32⟩
  | .hbm, ⟨21, _⟩ => ⟨S473088, .i32⟩
  | .hbm, ⟨22, _⟩ => ⟨S473088, .i1⟩
  | .hbm, ⟨23, _⟩ => ⟨S473088, .i1⟩
  | .hbm, ⟨24, _⟩ => ⟨S_, .i32⟩
  | .hbm, ⟨25, _⟩ => ⟨S473088, .i32⟩
  | .hbm, ⟨26, _⟩ => ⟨S473088, .i1⟩
  | .hbm, ⟨27, _⟩ => ⟨S473088, .i1⟩
  | .hbm, ⟨28, _⟩ => ⟨S_, .i32⟩
  | .hbm, ⟨29, _⟩ => ⟨S473088, .i32⟩
  | .hbm, ⟨30, _⟩ => ⟨S473088, .i1⟩
  | .hbm, ⟨31, _⟩ => ⟨S473088, .i1⟩
  | .hbm, ⟨32, _⟩ => ⟨S_, .i32⟩
  | .hbm, ⟨33, _⟩ => ⟨S473088, .i32⟩
  | .hbm, ⟨34, _⟩ => ⟨S473088, .i1⟩
  | .hbm, ⟨35, _⟩ => ⟨S473088, .i1⟩
  | .hbm, ⟨36, _⟩ => ⟨S_, .i32⟩
  | .hbm, ⟨37, _⟩ => ⟨S473088, .i32⟩
  | .hbm, ⟨38, _⟩ => ⟨S473088, .i32⟩
  | .hbm, ⟨39, _⟩ => ⟨S473088, .i32⟩
  | .hbm, ⟨40, _⟩ => ⟨S_, .i32⟩
  | .hbm, ⟨41, _⟩ => ⟨S473088, .i32⟩
  | .hbm, ⟨42, _⟩ => ⟨S473088, .i32⟩
  | .hbm, ⟨43, _⟩ => ⟨S473088, .i32⟩
  | .hbm, ⟨44, _⟩ => ⟨S_, .i32⟩
  | .hbm, ⟨45, _⟩ => ⟨S473088, .i32⟩
  | .hbm, ⟨46, _⟩ => ⟨S473088, .i32⟩
  | .hbm, ⟨47, _⟩ => ⟨S473088, .i32⟩
  | .hbm, ⟨48, _⟩ => ⟨S_, .i32⟩
  | .hbm, ⟨49, _⟩ => ⟨S_, .i32⟩
  | .hbm, ⟨50, _⟩ => ⟨S473088, .i32⟩
  | .hbm, ⟨51, _⟩ => ⟨S473088, .i32⟩
  | .hbm, ⟨52, _⟩ => ⟨S_, .f32⟩
  | .hbm, ⟨53, _⟩ => ⟨S262145x80, .f32⟩
  | .hbm, ⟨54, _⟩ => ⟨S473088x1, .i32⟩
  | .hbm, ⟨55, _⟩ => ⟨S262145x80, .f32⟩
  | .hbm, ⟨56, _⟩ => ⟨S262144x80, .f32⟩
  | .hbm, ⟨57, _⟩ => ⟨S1x128x128x16x80, .f32⟩
  | .hbm, ⟨58, _⟩ => ⟨S1x80x16x128x128, .f32⟩
  | _, _ => ⟨S1x6x112x16x44x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_call0_v0 : Ref sig .tc := ⟨.hbm, 49, rfl⟩
abbrev main_call0_v1 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  shapeCasts_S1x6x112x16x44x80_S473088x80 : S1x6x112x16x44x80.ShapeCasts S473088x80
  shapeCasts_S1x6x112x16x44x3_S473088x3 : S1x6x112x16x44x3.ShapeCasts S473088x3
  bcast_S1_S1x473088_0 : S1.BroadcastsInDim S1x473088 (![0] : Fin 1 → Fin S1x473088.rank)
  shapeCasts_S1x473088_S473088 : S1x473088.ShapeCasts S473088
  slices_S473088x3_S473088x1_0_0 : S473088x3.Slices ![0, 0] S473088x1
  shapeCasts_S473088x1_S473088 : S473088x1.ShapeCasts S473088
  slices_S473088x3_S473088x1_0_1 : S473088x3.Slices ![0, 1] S473088x1
  slices_S473088x3_S473088x1_0_2 : S473088x3.Slices ![0, 2] S473088x1
  bcast_S_S473088 : S_.BroadcastsInDim S473088 (![] : Fin 0 → Fin S473088.rank)
  bcast_S_S262145x80 : S_.BroadcastsInDim S262145x80 (![] : Fin 0 → Fin S262145x80.rank)
  bcast_S473088_S473088x1_0 : S473088.BroadcastsInDim S473088x1 (![0] : Fin 1 → Fin S473088x1.rank)
  slices_S262145x80_S262144x80_0_0 : S262145x80.Slices ![0, 0] S262144x80
  shapeCasts_S262144x80_S1x128x128x16x80 : S262144x80.ShapeCasts S1x128x128x16x80
  transposes_S1x128x128x16x80_S1x80x16x128x128_0_4_3_1_2 : S1x128x128x16x80.Transposes [0, 4, 3, 1, 2] S1x80x16x128x128
  scatter_S262145x80_S473088x1_S473088x80_1_0_0_1_wf : ScatterDims.WF S262145x80 S473088x1 S473088x80 [1] [0] [0] 1

variable [Facts₀]

def scatter_S262145x80_S473088x1_S473088x80_1_0_0_1 : ScatterDims S262145x80 S473088x1 S473088x80 where
  updateWindowDims := [1]
  insertedWindowDims := [0]
  scatterDimsToOperandDims := [0]
  indexVectorDim := 1
  wf := scatter_S262145x80_S473088x1_S473088x80_1_0_0_1_wf

class Facts : Prop extends Facts₀ where

variable [Facts]
-- ==== Proof.VoxelId.lean ====
/-
  The voxel id of one lifted point, as a function of its three integer grid coordinates, and two facts about it that
  do not depend on either program.

  A point with coordinates (gx, gy, gz) falls in the voxel grid 128 × 128 × 16 when 0 ≤ gx < 128, 0 ≤ gy < 128 and
  0 ≤ gz < 16 (signed comparisons of 32-bit words); its voxel id is then (gx · 128 + gy) · 16 + gz, computed in
  32-bit two's-complement arithmetic, and otherwise the dummy id 262144 = 128 · 128 · 16, one past the last voxel.
-/
import Idealize.ShloMosaic.PureOps.Vector
import Idealize.ShloMosaic.PureOps.ShapeOps
import Idealize.ShloMosaic.Lib.Pipeline.Value

namespace Cert.Voxel

open Idealize.ShloMosaic

/-- Inside the grid: the conjunction of the six signed comparisons, as one bit. -/
def kept (gx gy gz : BitVec 32) : BitVec 1 :=
  IntOp.andi (IntOp.andi (IntOp.andi (IntOp.andi (IntOp.andi (IntOp.cmpi .sge gx 0#32) (IntOp.cmpi .slt gx 128#32))
    (IntOp.cmpi .sge gy 0#32)) (IntOp.cmpi .slt gy 128#32)) (IntOp.cmpi .sge gz 0#32)) (IntOp.cmpi .slt gz 16#32)

/-- The voxel id of the point (gx, gy, gz): its row-major position in the grid when inside, the dummy id otherwise. -/
def voxelId (gx gy gz : BitVec 32) : BitVec 32 :=
  Scalar.select (kept gx gy gz) (IntOp.addi (IntOp.muli (IntOp.addi (IntOp.muli gx 128#32) gy) 16#32) gz) 262144#32

/-- With a single batch the batch index is zero, and the batch term 0 · 128 + gx of the id is gx itself. -/
theorem batch_zero (gx : BitVec 32) : IntOp.addi (IntOp.muli 0#32 128#32) gx = gx := by
  unfold IntOp.addi IntOp.muli
  rw [BitVec.zero_mul, BitVec.zero_add]

/-- A function applied point by point to three vectors laid out under another shape, and the result laid back under
    the first shape, is the function applied point by point to the three vectors: re-laying an index there and back
    is the identity. -/
theorem relay_pointwise {s t : Shape} {α β : Type} (f : α → α → α → β) (a b c : s.Idx → α)
    (h : s.ShapeCasts t) (h' : t.ShapeCasts s) :
    shapeCast s (fun j => f (shapeCast t a h j) (shapeCast t b h j) (shapeCast t c h j)) h'
      = fun n => f (a n) (b n) (c n) := by
  funext n
  unfold shapeCast
  simp only [Shape.reshapeEquiv_reshapeEquiv, Shape.reshapeEquiv_self]

end Cert.Voxel
-- ==== Proof.RefSeg.lean ====
/-
  The reference's segment ids. The reference slices the three coordinate columns out of the [473088, 3] table of
  integer coordinates, tests each point against the voxel grid, and selects between the point's row-major voxel
  position and the dummy id; its batch index is an iota over ONE batch, so it is zero and the batch term drops out.
  Index by index that vector is the voxel id of the three columns.
-/
import proofs.«426683_j46188078301708_3_alg».proof.Proof.Gen.ReferenceIdeal.Run
import proofs.«426683_j46188078301708_3_alg».proof.Proof.Gen.ReferenceIdeal.Read
import proofs.«426683_j46188078301708_3_alg».proof.Proof.VoxelId

noncomputable section

namespace Cert.ReferenceIdeal.Seg

open Cert.ReferenceIdeal Cert.ReferenceIdeal.Gen Cert.ReferenceIdeal.Read Idealize.ShloMosaic Idealize.ShloMosaic.TcCoe

variable {F : FTy → Type} [FloatOps F]

/-- The reference's id vector, point by point: the voxel id of the point's three coordinates. -/
theorem ids_apply (x1 : (⟨S1x6x112x16x44x3, .i32⟩ : BufTy).Contents (Elt F)) (i : S473088.Idx) :
    val_main_v37 (F := F) x1 i
      = Cert.Voxel.voxelId (val_main_v6 (F := F) x1 i) (val_main_v8 (F := F) x1 i) (val_main_v10 (F := F) x1 i) := by
  simp only [val_main_v37_apply, val_main_v27_apply, val_main_v26_apply, val_main_v25_apply, val_main_c_4_apply, val_main_v24_apply, val_main_v23_apply, val_main_v22_apply, val_main_c_3_apply, val_main_v21_apply, val_main_v20_apply, val_main_v19_apply, val_main_c_2_apply, val_main_v18_apply, val_main_v17_apply, val_main_v16_apply, val_main_c_1_apply, val_main_v15_apply, val_main_v14_apply, val_main_v13_apply, val_main_c_0_apply, val_main_v12_apply, val_main_v11_apply, val_main_c_apply, val_main_v36_apply, val_main_v35_apply, val_main_v34_apply, val_main_c_7_apply, val_main_v33_apply, val_main_v32_apply, val_main_v31_apply, val_main_c_6_apply, val_main_v30_apply, val_main_v29_apply, val_main_v28_apply, val_main_c_5_apply, val_main_v4_apply, val_main_v3_apply, val_main_v2_apply, val_main_call0_v1_apply, val_main_call0_v0_apply, val_main_c_8_apply]
  rw [Cert.Voxel.batch_zero]
  rfl

end Cert.ReferenceIdeal.Seg

end
-- ==== Proof.KernelSeg.lean ====
/-
  The kernel's segment ids. Before the region the host slices the three coordinate columns out of the [473088, 3]
  table and lays each out as [3696, 128]; the region walks those three arrays in 3 blocks of 1232 rows and writes, into
  the same rows of a fourth [3696, 128] array, the voxel id of each point; after the region the host lays that array
  back out as a vector of 473088 ids. Index by index that vector is the voxel id of the three columns.
-/
import proofs.«426683_j46188078301708_3_alg».proof.Proof.Gen.KernelIdeal.Frame
import proofs.«426683_j46188078301708_3_alg».proof.Proof.VoxelId
import Idealize.ShloMosaic.Lib.Pipeline.Value
import Idealize.ShloMosaic.Lib.StableHlo.Run

set_option maxRecDepth 16384

noncomputable section

namespace Cert.KernelIdeal.Seg

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F]

/-! ## The three coordinate columns -/

/-- Column `k` of the coordinate table, as a vector over the 473088 points. -/
def colX (a1 : Vec F S1x6x112x16x44x3 .i32) : IVec S473088 32 :=
  shapeCast _ (extractStridedSlice S473088x1 ![0, 0] (shapeCast _ a1 Facts₀.shapeCasts_S1x6x112x16x44x3_S473088x3) Facts₀.slices_S473088x3_S473088x1_0_0) Facts₀.shapeCasts_S473088x1_S473088
/-- The second coordinate of every point: column 1 of the table. -/
def colY (a1 : Vec F S1x6x112x16x44x3 .i32) : IVec S473088 32 :=
  shapeCast _ (extractStridedSlice S473088x1 ![0, 1] (shapeCast _ a1 Facts₀.shapeCasts_S1x6x112x16x44x3_S473088x3) Facts₀.slices_S473088x3_S473088x1_0_1) Facts₀.shapeCasts_S473088x1_S473088
/-- The third coordinate of every point: column 2 of the table. -/
def colZ (a1 : Vec F S1x6x112x16x44x3 .i32) : IVec S473088 32 :=
  shapeCast _ (extractStridedSlice S473088x1 ![0, 2] (shapeCast _ a1 Facts₀.shapeCasts_S1x6x112x16x44x3_S473088x3) Facts₀.slices_S473088x3_S473088x1_0_2) Facts₀.shapeCasts_S473088x1_S473088

/-- The ids of all points as a [3696, 128] array: the voxel id of the three columns, each laid out as [3696, 128]. -/
def idsArr (a1 : Vec F S1x6x112x16x44x3 .i32) : IVec S3696x128 32 := fun j =>
  Cert.Voxel.voxelId (shapeCast S3696x128 (colX a1) Facts₀.shapeCasts_S473088_S3696x128 j)
    (shapeCast S3696x128 (colY a1) Facts₀.shapeCasts_S473088_S3696x128 j)
    (shapeCast S3696x128 (colZ a1) Facts₀.shapeCasts_S473088_S3696x128 j)

variable (m : (ℓ : Loc nD τ sig) → Buf (Elt F) ℓ) (ρ : Dev nD → PrngReg)

/-! ## What the region finds in its three input arrays -/

theorem V_gx (c : Dev nD) : (V m c main_v4 : S3696x128.Idx → BitVec 32)
    = shapeCast S3696x128 (colX (m ((c : Thread nD τ).loc main_arg1))) Facts₀.shapeCasts_S473088_S3696x128 := by
  show StableHlo.after hostOps0 (fun b => m (c, b)) (Proc.devRef .tc main_v4) = _
  after_results
  rfl
theorem V_gy (c : Dev nD) : (V m c main_v7 : S3696x128.Idx → BitVec 32)
    = shapeCast S3696x128 (colY (m ((c : Thread nD τ).loc main_arg1))) Facts₀.shapeCasts_S473088_S3696x128 := by
  show StableHlo.after hostOps0 (fun b => m (c, b)) (Proc.devRef .tc main_v7) = _
  after_results
  rfl
theorem V_gz (c : Dev nD) : (V m c main_v10 : S3696x128.Idx → BitVec 32)
    = shapeCast S3696x128 (colZ (m ((c : Thread nD τ).loc main_arg1))) Facts₀.shapeCasts_S473088_S3696x128 := by
  show StableHlo.after hostOps0 (fun b => m (c, b)) (Proc.devRef .tc main_v10) = _
  after_results
  rfl

/-! ## The body's stored value, point by point -/

/-- The body's one store holds, at every point of the block, the voxel id of the three loaded coordinates. -/
theorem pay_apply (x0 x1 x2 : Vec F S1232x128 .i32) (j : S1232x128.Idx) :
    k0_pay1 x0 x1 x2 j = Cert.Voxel.voxelId (x0 j) (x1 j) (x2 j) := by
  unfold k0_pay1
  simp only [shapeCast_self]
  rfl

/-! ## What a grid point writes back -/

theorem hz : (![0, 0] : Fin 2 → Nat) = fun _ => 0 := funext fun a => by fin_cases a <;> rfl

/-- The four windows move together: at every grid point each input window is at the output window's block, which is
    one of the three row blocks, at lane block 0. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 2 ∧ win0_3.index t (1 : Fin 2) = 0 :=
  (by decide +kernel : ∀ t : Fin grid0.N, _)

/-- Each of the three row blocks is some grid point's. -/
theorem idx_onto : ∀ q0 : Fin 3, ∃ t : Fin cfg0.N, win0_3.index t = ![q0.val, 0] :=
  (by decide +kernel : ∀ q0 : Fin 3, ∃ t : Fin grid0.N, win0_3.index t = ![q0.val, 0])

/-- What point `t` writes back is block `t` of the id array: the body reads the three coordinate arrays at the rows the
    output block names, and stores the voxel id of what it read. -/
theorem flushed_eq (c : Dev nD) (t : Fin cfg0.N) :
    (dats m 0 c).flushed 3 t
      = ((cfg0.win 3).blk t).view.read (Elt F) (idsArr (m ((c : Thread nD τ).loc main_arg1))) := by
  show (cfg0.win 3).cut (grid0.coords t) ((dats m 0 c).after 3 t) = _
  rw [after0_3]
  unfold out0_3
  rw [View.canon_unit_zero hz]
  simp only [View.ld_unit_zero (S := S1232x128) hz]
  obtain ⟨e0, e1, e2, e3, e4, e5, e6, e7⟩ := idx_facts t
  funext j
  have h0 : ((cfg0.win 0).blk t).view.emb j = ((cfg0.win 3).blk t).view.emb j := by
    funext a; apply Fin.ext
    match a with
    | ⟨0, _⟩ => show win0_0.index t (0 : Fin 2) * 1232 + 1 * (j 0).val = win0_3.index t (0 : Fin 2) * 1232 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 1232 + 1 * (j 0).val = win0_3.index t (0 : Fin 2) * 1232 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 1232 + 1 * (j 0).val = win0_3.index t (0 : Fin 2) * 1232 + 1 * (j 0).val; omega
    | ⟨1, _⟩ => show win0_2.index t (1 : Fin 2) * 128 + 1 * (j 1).val = win0_3.index t (1 : Fin 2) * 128 + 1 * (j 1).val; omega
  show k0_pay1 (iblk m c 0 t) (iblk m c 1 t) (iblk m c 2 t) j
    = idsArr (m ((c : Thread nD τ).loc main_arg1)) (((cfg0.win 3).blk t).view.emb j)
  rw [pay_apply (iblk m c 0 t) (iblk m c 1 t) (iblk m c 2 t) j]
  show Cert.Voxel.voxelId (V m c main_v4 (((cfg0.win 0).blk t).view.emb j)) (V m c main_v7 (((cfg0.win 1).blk t).view.emb j))
      (V m c main_v10 (((cfg0.win 2).blk t).view.emb j)) = _
  rw [h0, h1, h2, V_gx, V_gy, V_gz]
  rfl

/-! ## The id array after the region -/

/-- An index of the id array is in point `t`'s block iff each coordinate is in the block's range on its axis. -/
theorem mem_blk (t : Fin cfg0.N) (i : S3696x128.Idx) :
    i ∈ ((cfg0.win 3).blk t).view.set ↔ ∀ a : Fin 2, win0_3.index t a * S1232x128.size a ≤ (i a).val
      ∧ (i a).val < win0_3.index t a * S1232x128.size a + S1232x128.size a := by
  show i ∈ ((View.whole main_v11).slice (win0_3.rect t)).set ↔ _
  rw [View.set_slice_whole, Rect.mem_set_unit]
  exact Iff.rfl

/-- The three row blocks tile the id array: row `r` is in the block of the point at row block `r / 1232`. -/
theorem cover (i : S3696x128.Idx) :
    ∃ t : Fin cfg0.N, (cfg0.win 3).flush t = true ∧ i ∈ ((cfg0.win 3).blk t).view.set := by
  have hi0 : (i 0).val < 3696 := (i 0).isLt
  have hi1 : (i 1).val < 128 := (i 1).isLt
  obtain ⟨t, ht⟩ := idx_onto ⟨(i 0).val / 1232, by omega⟩
  have q0 : win0_3.index t (0 : Fin 2) = (i 0).val / 1232 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1232 ≤ (i 0).val ∧ (i 0).val < win0_3.index t (0 : Fin 2) * 1232 + 1232; omega
  | ⟨1, _⟩ => show win0_3.index t (1 : Fin 2) * 128 ≤ (i 1).val ∧ (i 1).val < win0_3.index t (1 : Fin 2) * 128 + 128; omega

/-- After the region the fourth array holds the id of every point. -/
theorem final (c : Dev nD) : (dats m 0 c).arrAt 3 cfg0.N = idsArr (m ((c : Thread nD τ).loc main_arg1)) :=
  (dats m 0 c).arrAt_eq_of_cover 3 _ (fun t _ => flushed_eq m c t) cover

/-! ## The host lines after the region -/

/-- What the host computes from the id vector and the feature table: the features re-laid as [473088, 80] rows, each
    row added into the row of a zero [262145, 80] table that its point's id names, the dummy last row dropped, and the
    [262144, 80] result re-laid as [1, 128, 128, 16, 80] and transposed to [1, 80, 16, 128, 128]. Both programs end with
    these lines, so they are never opened. -/
def pooled (ids : IVec S473088 32) (x : Vec F S1x6x112x16x44x80 .f32) : Vec F S1x80x16x128x128 .f32 :=
  transpose S1x80x16x128x128 [0, 4, 3, 1, 2]
    (shapeCast _ (extractStridedSlice S262144x80 ![0, 0]
      (Host.scatterAdd scatter_S262145x80_S473088x1_S473088x80_1_0_0_1
        (broadcastInDim S262145x80 ![] Facts₀.bcast_S_S262145x80 (constant (F := F) S_ .f32 0x00000000#32))
        (broadcastInDim S473088x1 ![0] Facts₀.bcast_S473088_S473088x1_0 ids)
        (shapeCast _ x Facts₀.shapeCasts_S1x6x112x16x44x80_S473088x80))
      Facts₀.slices_S262145x80_S262144x80_0_0) Facts₀.shapeCasts_S262144x80_S1x128x128x16x80)
    Facts₀.transposes_S1x128x128x16x80_S1x80x16x128x128_0_4_3_1_2

/-- The id of every point, as a vector over the 473088 points. -/
def ids (a1 : Vec F S1x6x112x16x44x3 .i32) : IVec S473088 32 := fun n =>
  Cert.Voxel.voxelId (colX a1 n) (colY a1 n) (colZ a1 n)

/-- The id array laid back out as a vector is the id vector. -/
theorem idsArr_flat (a1 : Vec F S1x6x112x16x44x3 .i32) :
    shapeCast S473088 (idsArr a1) Facts₀.shapeCasts_S3696x128_S473088 = ids a1 :=
  Cert.Voxel.relay_pointwise Cert.Voxel.voxelId (colX a1) (colY a1) (colZ a1) Facts₀.shapeCasts_S473088_S3696x128 Facts₀.shapeCasts_S3696x128_S473088

/-- The program's result: the host lines after the region, applied to the id vector and the feature table. -/
theorem result_eq (c : Dev nD) :
    Pipeline.afterTail₀ cfgs (dats m) 0 (V0 m) [hostOps1] c main_v18
      = pooled (ids (m ((c : Thread nD τ).loc main_arg1))) (m ((c : Thread nD τ).loc main_arg0)) := by
  unfold Pipeline.afterTail₀
  show StableHlo.after hostOps1 _ (Proc.devRef .tc main_v18) = _
  after_results
  have hids : Pipeline.withArrays (cfgs 0).spec c (V0 m c) (fun w => (dats m 0 c).arrAt w (cfgs 0).N) (Proc.devRef .tc main_v11)
      = idsArr (m ((c : Thread nD τ).loc main_arg1)) :=
    (Pipeline.withArrays_arr spec0 launch0.win.arr_inj c _ _ 3).trans (final m c)
  have hx : Pipeline.withArrays (cfgs 0).spec c (V0 m c) (fun w => (dats m 0 c).arrAt w (cfgs 0).N) (Proc.devRef .tc main_v0)
      = shapeCast _ (m ((c : Thread nD τ).loc main_arg0)) Facts₀.shapeCasts_S1x6x112x16x44x80_S473088x80 :=
    (Pipeline.withArrays_of_ne spec0 c (V0 m c) _ main_v0 (by decide)).trans (by
      show StableHlo.after hostOps0 (fun b => m (c, b)) (Proc.devRef .tc main_v0) = _
      after_results
      rfl)
  rw [hids, hx, ← idsArr_flat]
  rfl

/-! ## The run, read -/

/-- Every weakly fair execution of the program terminates with its result at the host's last lines applied to the id
    vector and the feature table, and with its two arguments as launched. -/
theorem run : θ_run defs (onTc (τ := τ) (main (F := F))) ⟨m, fun _ => 0, ρ⟩ fun r => ∀ c : Dev nD,
      r.2.mem ((c.tc : Thread nD τ).loc main_v18)
        = pooled (ids (m ((c.tc : Thread nD τ).loc main_arg1))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Seg

end
-- ==== Proof.Bridge.lean ====
/-
  The two programs compute one function. The reference's last lines — scatter-add of the feature rows by id into a
  zero table, drop of the dummy row, re-laying and transposition — are word for word the kernel program's last lines,
  and the id vectors they are applied to are both the voxel id of the three coordinate columns, point by point. So the
  reference's result is the kernel program's result term.
-/
import proofs.«426683_j46188078301708_3_alg».proof.Proof.RefSeg
import proofs.«426683_j46188078301708_3_alg».proof.Proof.KernelSeg

noncomputable section

namespace Cert.Bridge

open Idealize.ShloMosaic Idealize.ShloMosaic.TcCoe

variable {F : FTy → Type} [FloatOps F]

/-- The reference's id vector is the kernel program's: the same three columns, the same voxel id. -/
theorem ref_ids (x1 : Vec F Cert.KernelIdeal.S1x6x112x16x44x3 .i32) :
    Cert.ReferenceIdeal.Read.val_main_v37 (F := F) x1 = Cert.KernelIdeal.Seg.ids x1 :=
  funext fun i => Cert.ReferenceIdeal.Seg.ids_apply x1 i

/-- The reference's result is the kernel program's result term of the same arguments. -/
theorem ref_result (x0 : Vec F Cert.KernelIdeal.S1x6x112x16x44x80 .f32) (x1 : Vec F Cert.KernelIdeal.S1x6x112x16x44x3 .i32) :
    Cert.ReferenceIdeal.Read.val_main_v43 (F := F) x0 x1 = Cert.KernelIdeal.Seg.pooled (Cert.KernelIdeal.Seg.ids x1) x0 := by
  unfold Cert.ReferenceIdeal.Read.val_main_v43 Cert.ReferenceIdeal.Read.val_main_v42 Cert.ReferenceIdeal.Read.val_main_v41
    Cert.ReferenceIdeal.Read.val_main_v40 Cert.ReferenceIdeal.Read.val_main_v39
  rw [ref_ids]
  rfl

end Cert.Bridge

end
-- ==== Proof.lean ====
/-
  Voxel pooling: every lifted point carries an 80-channel feature row and three integer grid coordinates; a point
  inside the 128 × 128 × 16 voxel grid has the voxel id (gx · 128 + gy) · 16 + gz, a point outside it the dummy id
  262144; the feature rows are summed per id into a [262145, 80] table, the dummy row is dropped, and the table is
  re-laid and transposed to [1, 80, 16, 128, 128].

  The kernel program computes the ids in a three-point grid over the coordinate columns laid out as [3696, 128] and
  leaves the summation to the host; the reference computes the ids on the host, with a batch index that is zero for
  its single batch. Point by point both id vectors are the voxel id of the same three coordinates (32-bit words,
  compared and multiplied the same way on both sides), and the lines that follow are the same in both programs, so the
  two results are one term: no law of the extended reals is used, and the finiteness of the features is never opened.
-/
import proofs.«426683_j46188078301708_3_alg».proof.Defs
import proofs.«426683_j46188078301708_3_alg».proof.Proof.Gen.Kernel
import proofs.«426683_j46188078301708_3_alg».proof.Proof.Gen.Kernel.Skeleton
import proofs.«426683_j46188078301708_3_alg».proof.Proof.Gen.Kernel.Launch
import proofs.«426683_j46188078301708_3_alg».proof.Proof.Gen.Kernel.Points
import proofs.«426683_j46188078301708_3_alg».proof.Proof.Gen.Kernel.Frame
import proofs.«426683_j46188078301708_3_alg».proof.Proof.Gen.KernelIdeal
import proofs.«426683_j46188078301708_3_alg».proof.Proof.Gen.KernelIdeal.Skeleton
import proofs.«426683_j46188078301708_3_alg».proof.Proof.Gen.KernelIdeal.Launch
import proofs.«426683_j46188078301708_3_alg».proof.Proof.Gen.KernelIdeal.Points
import proofs.«426683_j46188078301708_3_alg».proof.Proof.Gen.KernelIdeal.Frame
import proofs.«426683_j46188078301708_3_alg».proof.Proof.Gen.ReferenceIdeal
import proofs.«426683_j46188078301708_3_alg».proof.Proof.Gen.ReferenceIdeal.Run
import proofs.«426683_j46188078301708_3_alg».proof.Proof.Gen.ReferenceIdeal.Read
import proofs.«426683_j46188078301708_3_alg».proof.Proof.Gen.Pre_finite_inputs
import proofs.«426683_j46188078301708_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host lines only: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- From memories that agree on the feature table and the coordinate table, the kernel program ends at the summation
    lines applied to its id vector and the reference at the same lines applied to its own, and the two id vectors are
    one. -/
theorem algebraic : Cert.algebraic_KernelIdeal_ReferenceIdeal := by
  intro m ρ m' ρ' _ hagree
  refine ⟨fun c => Cert.KernelIdeal.Seg.pooled
      (Cert.KernelIdeal.Seg.ids (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)),
    Cert.KernelIdeal.Seg.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2]
  exact Cert.Bridge.ref_result _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
